-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩

abbrev nBuf : Space → Nat
  | .hbm => 18
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S512x1024, .f32⟩
  | .local _ .vmem, ⟨11, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S512x16x64 : S512x1024.ShapeCasts S512x16x64
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S512x1024 : S512x16x64.ShapeCasts S512x1024
  dot_S512x1024_S1024x1024_S512x1024_1_0_0_1_n_n_wf : DotDims.WF S512x1024 S1024x1024 S512x1024 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S65536x1024.size a
  hwx0_9 : ∀ i : grid0.Coords, EltTy.bits .f32 = 32 ∨ (Rect.block (s := S65536x1024) S512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x16x64, .f32⟩
  | .hbm, ⟨15, _⟩ => ⟨S1024x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x16x64, .f32⟩
  | .hbm, ⟨21, _⟩ => ⟨S1024x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x16x64, .f32⟩
  | .hbm, ⟨27, _⟩ => ⟨S65536x16x16, .f32⟩
  | .hbm, ⟨28, _⟩ => ⟨S_, .f32⟩
  | .hbm, ⟨29, _⟩ => ⟨S65536x16x16, .f32⟩
  | .hbm, ⟨30, _⟩ => ⟨S65536x16x16, .f32⟩
  | .hbm, ⟨31, _⟩ => ⟨S_, .f32⟩
  | .hbm, ⟨32, _⟩ => ⟨S65536x16, .f32⟩
  | .hbm, ⟨33, _⟩ => ⟨S_, .f32⟩
  | .hbm, ⟨34, _⟩ => ⟨S65536x16, .f32⟩
  | .hbm, ⟨35, _⟩ => ⟨S65536x16, .f32⟩
  | .hbm, ⟨36, _⟩ => ⟨S65536x16x1, .f32⟩
  | .hbm, ⟨37, _⟩ => ⟨S65536x16x16, .f32⟩
  | .hbm, ⟨38, _⟩ => ⟨S65536x16x16, .f32⟩
  | .hbm, ⟨39, _⟩ => ⟨S65536x16x16, .f32⟩
  | .hbm, ⟨40, _⟩ => ⟨S_, .f32⟩
  | .hbm, ⟨41, _⟩ => ⟨S65536x16, .f32⟩
  | .hbm, ⟨42, _⟩ => ⟨S65536x16x1, .f32⟩
  | .hbm, ⟨43, _⟩ => ⟨S65536x16x16, .f32⟩
  | .hbm, ⟨44, _⟩ => ⟨S65536x16x16, .f32⟩
  | .hbm, ⟨45, _⟩ => ⟨S65536x16x64, .f32⟩
  | .hbm, ⟨46, _⟩ => ⟨S65536x1024, .f32⟩
  | .hbm, ⟨47, _⟩ => ⟨S1024x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x16x64 : S65536x1024.ShapeCasts S65536x16x64
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  dot_S65536x1024_S1024x1024_S65536x1024_1_0_0_1_n_n_wf : DotDims.WF S65536x1024 S1024x1024 S65536x1024 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf

class Facts : Prop extends Facts₀ where

variable [Facts]
-- ==== Proof.Spec.lean ====
/-
  The mathematics both programs compute, one row at a time.

  A row `x` of 1024 numbers is projected three times (`q`, `k`, `v`: a matrix product with a
  1024 x 1024 matrix, laid out contraction index first, plus a bias), each projection is read as 16
  heads of 64 lanes, the 16 x 16 head-to-head scores `(sum over d of q(h1,d) * k(h2,d)) * (1/8)` go
  through a softmax along `h2` (the row maximum taken from the pattern of minus infinity, the
  exponentials, their sum, the quotient), the probabilities mix the heads of `v`, and the mixed row
  is projected once more. Every row of the result array depends on the same row of the input only,
  which is why a program that works on 512 rows at a time and one that works on all 65536 at once
  agree: both are `attnRow` of the row.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- A 1024 x 1024 matrix and a vector of 1024 entries over the extended reals. -/
abbrev Mat := (⟨2, ![1024, 1024]⟩ : Shape).Idx → EReal
abbrev Vec1 := (⟨1, ![1024]⟩ : Shape).Idx → EReal

/-- The pattern of minus infinity, from which both programs start a row maximum. -/
abbrev negInf : EReal := Ideal.ofBits .f32 0xFF800000#32
/-- The pattern of 0.125, the kernel's score scale. -/
abbrev eighth : EReal := Ideal.ofBits .f32 0x3E000000#32

/-- Lane `d` of head `h` sits at position `64 h + d` of a row. -/
def hd (h : Fin 16) (d : Fin 64) : Fin 1024 := ⟨h.val * 64 + d.val, by have := h.isLt; have := d.isLt; omega⟩
/-- The head and the lane of a position. -/
def headOf (j : Fin 1024) : Fin 16 := ⟨j.val / 64, by have := j.isLt; omega⟩
def laneOf (j : Fin 1024) : Fin 64 := ⟨j.val % 64, Nat.mod_lt _ (by decide)⟩

theorem hd_val (h : Fin 16) (d : Fin 64) : (hd h d).val = h.val * 64 + d.val := rfl
theorem headOf_val (j : Fin 1024) : (headOf j).val = j.val / 64 := rfl
theorem laneOf_val (j : Fin 1024) : (laneOf j).val = j.val % 64 := rfl

/-- A row times a matrix (contraction index first) plus a bias, at output position `e`. -/
def proj (W : Mat) (b : Vec1) (x : Fin 1024 → EReal) (e : Fin 1024) : EReal :=
  (∑ k : Fin 1024, x k * W (ix2 k e)) + b (ix1 e)

/-- The scaled score of head `h1` of `q` against head `h2` of `k`. -/
def score (q k : Fin 1024 → EReal) (h1 h2 : Fin 16) : EReal :=
  (∑ d : Fin 64, q (hd h1 d) * k (hd h2 d)) * eighth

/-- The maximum of a row of scores, started from minus infinity and joined with it once more. -/
def rowMax (s : Fin 16 → Fin 16 → EReal) (h1 : Fin 16) : EReal :=
  max negInf ((Finset.univ : Finset (Fin 16)).fold max negInf (s h1))

/-- The shifted exponentials, their sum, and the softmax probabilities. -/
def expo (s : Fin 16 → Fin 16 → EReal) (h1 h2 : Fin 16) : EReal := Ideal.exp (s h1 h2 - rowMax s h1)
def expSum (s : Fin 16 → Fin 16 → EReal) (h1 : Fin 16) : EReal := ∑ h2 : Fin 16, expo s h1 h2
def prob (s : Fin 16 → Fin 16 → EReal) (h1 h2 : Fin 16) : EReal := Ideal.div (expo s h1 h2) (expSum s h1)

/-- Head `h1`, lane `d` of the mixed values. -/
def mix (s : Fin 16 → Fin 16 → EReal) (v : Fin 1024 → EReal) (h1 : Fin 16) (d : Fin 64) : EReal :=
  ∑ h2 : Fin 16, prob s h1 h2 * v (hd h2 d)

/-- One row of the result: the three projections, the per-row attention over the heads, the output projection. -/
def attnRow (Wq Wk Wv Wo : Mat) (bq bk bv bo : Vec1) (x : Fin 1024 → EReal) (e : Fin 1024) : EReal :=
  proj Wo bo (fun j => mix (score (proj Wq bq x) (proj Wk bk x)) (proj Wv bv x) (headOf j) (laneOf j)) e

/-- The whole result array: row `n` of the result is `attnRow` of row `n` of the input. -/
def result (H : (⟨2, ![65536, 1024]⟩ : Shape).Idx → EReal) (Wq Wk Wv Wo : Mat) (bq bk bv bo : Vec1) :
    (⟨2, ![65536, 1024]⟩ : Shape).Idx → EReal :=
  fun i => attnRow Wq Wk Wv Wo bq bk bv bo (fun k => H (ix2 (i 0) k)) (i 1)

/-! ## The two constants -/

theorem eighth_eq : eighth = ((1 / 8 : ℝ) : EReal) := by
  simp [eighth, Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

/-- Dividing by the pattern of 8.0 is multiplying by the pattern of 0.125, on every extended real. -/
theorem div_eight (x : EReal) : Ideal.div x (Ideal.ofBits .f32 0x41000000#32) = x * eighth := by
  rw [ofBits_eight, Ideal.div_coe (by norm_num : (8 : ℝ) ≠ 0), eighth_eq]

end Cert.Attn

end
-- ==== Proof.KernelMatmul.lean ====
/-
  The kernel's three kinds of matrix product, each read at one entry of its result as a plain sum
  over the contraction index: a 512 x 1024 block times a 1024 x 1024 matrix (the four projections),
  the head-to-head scores (for every row, heads of `q` against heads of `k`, contracting the 64 lanes),
  and the mixing of the heads of `v` by the probabilities (contracting the 16 heads). Each product
  accumulates into a zero array, so at the exact instance it is just the sum.
-/
import proofs.«132531_j43044162240543_1_alg».proof.Proof.Gen.KernelIdeal.Skeleton
import Idealize.ShloMosaic.Lib.ValueIdx
import Idealize.ShloMosaic.PureOps.Ideal.Laws

noncomputable section

namespace Cert.Attn.Ker

open Cert.KernelIdeal Cert.KernelIdeal.Gen Idealize.ShloMosaic Idealize.ShloMosaic.ValueIdx

/-! ## A block times a matrix: the operand indices, axis by axis -/

theorem lhsP_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsP_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsP_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsP_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry `(p, e)` of a block times a matrix: the sum over `k` of the block at `(p, k)` times the matrix at `(k, e)`. -/
theorem matmulP_apply {φ₁ φ₂ : FTy} (a : FVec Ideal S512x1024 φ₁) (w : FVec Ideal S1024x1024 φ₂) (p : Fin 512) (e : Fin 1024) :
    matmul dot_S512x1024_S1024x1024_S512x1024_1_0_0_1_n_n none a w (constant S512x1024 .f32 0x00000000#32) (ix2 p e)
      = ∑ k : Fin 1024, a (ix2 p k) * w (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p e) ((contrEquiv1 dot_S512x1024_S1024x1024_S512x1024_1_0_0_1_n_n 1024 rfl rfl).symm k) = ix2 p k := funext fun a => Fin.ext (by
    match a with
    | ⟨0, _⟩ => exact lhsP_0 _ _
    | ⟨1, _⟩ => exact (lhsP_1 _ _).trans hk)
  have er : dot_S512x1024_S1024x1024_S512x1024_1_0_0_1_n_n.rhsIdx (ix2 p e) ((contrEquiv1 dot_S512x1024_S1024x1024_S512x1024_1_0_0_1_n_n 1024 rfl rfl).symm k) = ix2 k e := funext fun a => Fin.ext (by
    match a with
    | ⟨0, _⟩ => exact (rhsP_0 _ _).trans hk
    | ⟨1, _⟩ => exact rhsP_1 _ _)
  rw [el, er]

/-! ## Heads against heads, row by row -/

theorem lhsS_0 (i : S512x16x16.Idx) (q : dot_S512x16x64_S512x16x64_S512x16x16_2_2_1_1_0_0.contr.Idx) :
    (dot_S512x16x64_S512x16x64_S512x16x16_2_2_1_1_0_0.lhsIdx i q 0).val = (i 0).val := by
  unfold DotDims.lhsIdx
  rw [dif_pos (show (0 : Fin S512x16x64.rank) ∈ dot_S512x16x64_S512x16x64_S512x16x16_2_2_1_1_0_0.lhsBatch by decide)]
  rfl
theorem lhsS_1 (i : S512x16x16.Idx) (q : dot_S512x16x64_S512x16x64_S512x16x16_2_2_1_1_0_0.contr.Idx) :
    (dot_S512x16x64_S512x16x64_S512x16x16_2_2_1_1_0_0.lhsIdx i q 1).val = (i 1).val := by
  unfold DotDims.lhsIdx
  rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
  rfl
theorem lhsS_2 (i : S512x16x16.Idx) (q : dot_S512x16x64_S512x16x64_S512x16x16_2_2_1_1_0_0.contr.Idx) :
    (dot_S512x16x64_S512x16x64_S512x16x16_2_2_1_1_0_0.lhsIdx i q 2).val = (q ⟨0, by decide⟩).val :=
  dot_S512x16x64_S512x16x64_S512x16x16_2_2_1_1_0_0.lhsIdx_val_of_single rfl i q
theorem rhsS_0 (i : S512x16x16.Idx) (q : dot_S512x16x64_S512x16x64_S512x16x16_2_2_1_1_0_0.contr.Idx) :
    (dot_S512x16x64_S512x16x64_S512x16x16_2_2_1_1_0_0.rhsIdx i q 0).val = (i 0).val := by
  unfold DotDims.rhsIdx
  rw [dif_pos (show (0 : Fin S512x16x64.rank) ∈ dot_S512x16x64_S512x16x64_S512x16x16_2_2_1_1_0_0.rhsBatch by decide)]
  rfl
theorem rhsS_1 (i : S512x16x16.Idx) (q : dot_S512x16x64_S512x16x64_S512x16x16_2_2_1_1_0_0.contr.Idx) :
    (dot_S512x16x64_S512x16x64_S512x16x16_2_2_1_1_0_0.rhsIdx i q 1).val = (i 2).val := by
  unfold DotDims.rhsIdx
  rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
  rfl
theorem rhsS_2 (i : S512x16x16.Idx) (q : dot_S512x16x64_S512x16x64_S512x16x16_2_2_1_1_0_0.contr.Idx) :
    (dot_S512x16x64_S512x16x64_S512x16x16_2_2_1_1_0_0.rhsIdx i q 2).val = (q ⟨0, by decide⟩).val :=
  dot_S512x16x64_S512x16x64_S512x16x16_2_2_1_1_0_0.rhsIdx_val_of_single rfl i q

/-- Entry `(p, h1, h2)` of the scores before scaling: the sum over the lane `d` of `a (p, h1, d) * b (p, h2, d)`. -/
theorem matmulS_apply {φ₁ φ₂ : FTy} (a : FVec Ideal S512x16x64 φ₁) (b : FVec Ideal S512x16x64 φ₂) (p : Fin 512) (h1 h2 : Fin 16) :
    matmul dot_S512x16x64_S512x16x64_S512x16x16_2_2_1_1_0_0 none a b (constant S512x16x16 .f32 0x00000000#32) (ix3 p h1 h2)
      = ∑ d : Fin 64, a (ix3 p h1 d) * b (ix3 p h2 d) := by
  simp only [matmul]
  rw [Ideal.matmul_constant_zero_apply, ← Equiv.sum_comp (contrEquiv1 dot_S512x16x64_S512x16x64_S512x16x16_2_2_1_1_0_0 64 rfl rfl).symm]
  refine Finset.sum_congr rfl fun k _ => ?_
  have hk := contrEquiv1_symm_val dot_S512x16x64_S512x16x64_S512x16x16_2_2_1_1_0_0 64 rfl rfl k
  have el : dot_S512x16x64_S512x16x64_S512x16x16_2_2_1_1_0_0.lhsIdx (ix3 p h1 h2) ((contrEquiv1 dot_S512x16x64_S512x16x64_S512x16x16_2_2_1_1_0_0 64 rfl rfl).symm k) = ix3 p h1 k := funext fun a => Fin.ext (by
    match a with
    | ⟨0, _⟩ => exact lhsS_0 _ _
    | ⟨1, _⟩ => exact lhsS_1 _ _
    | ⟨2, _⟩ => exact (lhsS_2 _ _).trans hk)
  have er : dot_S512x16x64_S512x16x64_S512x16x16_2_2_1_1_0_0.rhsIdx (ix3 p h1 h2) ((contrEquiv1 dot_S512x16x64_S512x16x64_S512x16x16_2_2_1_1_0_0 64 rfl rfl).symm k) = ix3 p h2 k := funext fun a => Fin.ext (by
    match a with
    | ⟨0, _⟩ => exact rhsS_0 _ _
    | ⟨1, _⟩ => exact rhsS_1 _ _
    | ⟨2, _⟩ => exact (rhsS_2 _ _).trans hk)
  rw [el, er]

/-! ## Probabilities mixing the heads of the values, row by row -/

theorem lhsM_0 (i : S512x16x64.Idx) (q : dot_S512x16x16_S512x16x64_S512x16x64_2_1_1_2_0_0.contr.Idx) :
    (dot_S512x16x16_S512x16x64_S512x16x64_2_1_1_2_0_0.lhsIdx i q 0).val = (i 0).val := by
  unfold DotDims.lhsIdx
  rw [dif_pos (show (0 : Fin S512x16x16.rank) ∈ dot_S512x16x16_S512x16x64_S512x16x64_2_1_1_2_0_0.lhsBatch by decide)]
  rfl
theorem lhsM_1 (i : S512x16x64.Idx) (q : dot_S512x16x16_S512x16x64_S512x16x64_2_1_1_2_0_0.contr.Idx) :
    (dot_S512x16x16_S512x16x64_S512x16x64_2_1_1_2_0_0.lhsIdx i q 1).val = (i 1).val := by
  unfold DotDims.lhsIdx
  rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
  rfl
theorem lhsM_2 (i : S512x16x64.Idx) (q : dot_S512x16x16_S512x16x64_S512x16x64_2_1_1_2_0_0.contr.Idx) :
    (dot_S512x16x16_S512x16x64_S512x16x64_2_1_1_2_0_0.lhsIdx i q 2).val = (q ⟨0, by decide⟩).val :=
  dot_S512x16x16_S512x16x64_S512x16x64_2_1_1_2_0_0.lhsIdx_val_of_single rfl i q
theorem rhsM_0 (i : S512x16x64.Idx) (q : dot_S512x16x16_S512x16x64_S512x16x64_2_1_1_2_0_0.contr.Idx) :
    (dot_S512x16x16_S512x16x64_S512x16x64_2_1_1_2_0_0.rhsIdx i q 0).val = (i 0).val := by
  unfold DotDims.rhsIdx
  rw [dif_pos (show (0 : Fin S512x16x64.rank) ∈ dot_S512x16x16_S512x16x64_S512x16x64_2_1_1_2_0_0.rhsBatch by decide)]
  rfl
theorem rhsM_1 (i : S512x16x64.Idx) (q : dot_S512x16x16_S512x16x64_S512x16x64_2_1_1_2_0_0.contr.Idx) :
    (dot_S512x16x16_S512x16x64_S512x16x64_2_1_1_2_0_0.rhsIdx i q 1).val = (q ⟨0, by decide⟩).val :=
  dot_S512x16x16_S512x16x64_S512x16x64_2_1_1_2_0_0.rhsIdx_val_of_single rfl i q
theorem rhsM_2 (i : S512x16x64.Idx) (q : dot_S512x16x16_S512x16x64_S512x16x64_2_1_1_2_0_0.contr.Idx) :
    (dot_S512x16x16_S512x16x64_S512x16x64_2_1_1_2_0_0.rhsIdx i q 2).val = (i 2).val := by
  unfold DotDims.rhsIdx
  rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
  rfl

/-- Entry `(p, h, d)` of the mixed values: the sum over the head `h2` of `a (p, h, h2) * b (p, h2, d)`. -/
theorem matmulM_apply {φ₁ φ₂ : FTy} (a : FVec Ideal S512x16x16 φ₁) (b : FVec Ideal S512x16x64 φ₂) (p : Fin 512) (h : Fin 16) (d : Fin 64) :
    matmul dot_S512x16x16_S512x16x64_S512x16x64_2_1_1_2_0_0 none a b (constant S512x16x64 .f32 0x00000000#32) (ix3 p h d)
      = ∑ h2 : Fin 16, a (ix3 p h h2) * b (ix3 p h2 d) := by
  simp only [matmul]
  rw [Ideal.matmul_constant_zero_apply, ← Equiv.sum_comp (contrEquiv1 dot_S512x16x16_S512x16x64_S512x16x64_2_1_1_2_0_0 16 rfl rfl).symm]
  refine Finset.sum_congr rfl fun k _ => ?_
  have hk := contrEquiv1_symm_val dot_S512x16x16_S512x16x64_S512x16x64_2_1_1_2_0_0 16 rfl rfl k
  have el : dot_S512x16x16_S512x16x64_S512x16x64_2_1_1_2_0_0.lhsIdx (ix3 p h d) ((contrEquiv1 dot_S512x16x16_S512x16x64_S512x16x64_2_1_1_2_0_0 16 rfl rfl).symm k) = ix3 p h k := funext fun a => Fin.ext (by
    match a with
    | ⟨0, _⟩ => exact lhsM_0 _ _
    | ⟨1, _⟩ => exact lhsM_1 _ _
    | ⟨2, _⟩ => exact (lhsM_2 _ _).trans hk)
  have er : dot_S512x16x16_S512x16x64_S512x16x64_2_1_1_2_0_0.rhsIdx (ix3 p h d) ((contrEquiv1 dot_S512x16x16_S512x16x64_S512x16x64_2_1_1_2_0_0 16 rfl rfl).symm k) = ix3 p k d := funext fun a => Fin.ext (by
    match a with
    | ⟨0, _⟩ => exact rhsM_0 _ _
    | ⟨1, _⟩ => exact (rhsM_1 _ _).trans hk
    | ⟨2, _⟩ => exact rhsM_2 _ _)
  rw [el, er]

end Cert.Attn.Ker

end
-- ==== Proof.KernelLayout.lean ====
/-
  The kernel's re-layings and lane reductions, each read at one entry: a row of 1024 read as 16
  heads of 64 lanes and back; a bias laid along every row; a per-head number laid along the 16
  entries of its row of scores; and the maximum and the sum of a row of scores.
-/
import proofs.«132531_j43044162240543_1_alg».proof.Proof.Gen.KernelIdeal.Skeleton
import proofs.«132531_j43044162240543_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Ker

open Cert.KernelIdeal Cert.KernelIdeal.Gen Idealize.ShloMosaic Idealize.ShloMosaic.ValueIdx Cert.Attn

variable {α : Type}

/-- Row `p`, head `h`, lane `d` of the three-axis reading is row `p`, position `64 h + d`. -/
theorem toHeads_apply (v : S512x1024.Idx → α) (p : Fin 512) (h : Fin 16) (d : Fin 64) :
    shapeCast S512x16x64 v shapeCasts_S512x1024_S512x16x64 (ix3 p h d) = v (ix2 p (hd h d)) :=
  shapeCast_apply v shapeCasts_S512x1024_S512x16x64 (ix3 p h d) (ix2 p (hd h d)) (by
    rw [Shape.rowMajor_val_two, Shape.rowMajor_val_three]
    show p.val * 1024 + (h.val * 64 + d.val) = (p.val * 16 + h.val) * 64 + d.val
    omega)

/-- Row `p`, position `j` of the two-axis reading is row `p`, head `j / 64`, lane `j % 64`. -/
theorem fromHeads_apply (v : S512x16x64.Idx → α) (p : Fin 512) (j : Fin 1024) :
    shapeCast S512x1024 v shapeCasts_S512x16x64_S512x1024 (ix2 p j) = v (ix3 p (headOf j) (laneOf j)) :=
  shapeCast_apply v shapeCasts_S512x16x64_S512x1024 (ix2 p j) (ix3 p (headOf j) (laneOf j)) (by
    rw [Shape.rowMajor_val_three, Shape.rowMajor_val_two]
    show (p.val * 16 + j.val / 64) * 64 + j.val % 64 = p.val * 1024 + j.val
    have := j.isLt
    omega)

/-- A vector of 1024 entries laid along each of the 512 rows. -/
theorem biasRows_apply (b : S1024.Idx → α) (p : Fin 512) (e : Fin 1024) :
    broadcastTo S512x1024 (shapeCast S1x1024 b shapeCasts_S1024_S1x1024) broadcasts_S1x1024_S512x1024 (ix2 p e) = b (ix1 e) :=
  (broadcastTo_1b_ab_apply (shapeCast S1x1024 b shapeCasts_S1024_S1x1024) broadcasts_S1x1024_S512x1024 p e).trans
    (shapeCast_a_1a_apply b shapeCasts_S1024_S1x1024 (0 : Fin 1) e)

/-- One number per row and head, laid along the 16 entries of that head's row of scores. -/
theorem perHead_apply (v : S512x16.Idx → α) (p : Fin 512) (h1 h2 : Fin 16) :
    broadcastTo S512x16x16 (shapeCast S512x16x1 v shapeCasts_S512x16_S512x16x1) broadcasts_S512x16x1_S512x16x16 (ix3 p h1 h2)
      = v (ix2 p h1) := by
  refine (broadcastTo_apply (shapeCast S512x16x1 v shapeCasts_S512x16_S512x16x1) broadcasts_S512x16x1_S512x16x16
    (ix3 p h1 h2) (ix3 p h1 (0 : Fin 1)) (fun a => ?_)).trans ?_
  · match a with
    | ⟨0, _⟩ => show p.val = if (512 : Nat) = 1 then 0 else p.val; rw [if_neg (by decide)]
    | ⟨1, _⟩ => show h1.val = if (16 : Nat) = 1 then 0 else h1.val; rw [if_neg (by decide)]
    | ⟨2, _⟩ => show 0 = if (1 : Nat) = 1 then 0 else h2.val; rw [if_pos rfl]
  · exact shapeCast_apply v shapeCasts_S512x16_S512x16x1 (ix3 p h1 (0 : Fin 1)) (ix2 p h1) (by
      rw [Shape.rowMajor_val_two, Shape.rowMajor_val_three]
      show p.val * 16 + h1.val = (p.val * 16 + h1.val) * 1 + 0
      omega)

/-- The index the reduction over the last axis inserts a coordinate into. -/
theorem lift_eq (p : Fin 512) (h1 : Fin 16) (k : Fin 16) :
    reduces_S512x16x16_S512x16.lift (ix2 p h1) k = ix3 p h1 k :=
  funext fun a => Fin.ext (by
    match a with
    | ⟨0, _⟩ => rfl
    | ⟨1, _⟩ => rfl
    | ⟨2, _⟩ => rfl)

/-- The maximum over a row of scores, from the pattern of minus infinity. -/
theorem maxRow_apply (s : FVec Ideal S512x16x16 .f32) (hφ : FKind.Formats .f32)
    (hacc : (0xFF800000#32 : BitVec 32) = 0xFF800000#32) (p : Fin 512) (h1 : Fin 16) :
    multiReduction .maximumf [2] S512x16 s 0xFF800000#32 reduces_S512x16x16_S512x16 hφ hacc (ix2 p h1)
      = (Finset.univ : Finset (Fin 16)).fold max negInf (fun h2 => s (ix3 p h1 h2)) := by
  refine (Ideal.multiReduction_maximumf_single s 0xFF800000#32 reduces_S512x16x16_S512x16 hφ hacc (ix2 p h1)).trans ?_
  have e : (s ∘ reduces_S512x16x16_S512x16.lift (ix2 p h1)) = fun h2 : Fin 16 => s (ix3 p h1 h2) :=
    funext fun k => congrArg s (lift_eq p h1 k)
  rw [e]
  rfl

/-- The sum over a row of scores. -/
theorem sumRow_apply (s : FVec Ideal S512x16x16 .f32) (hφ : FKind.Formats .f32)
    (hacc : (0x00000000#32 : BitVec 32) = 0x00000000#32) (p : Fin 512) (h1 : Fin 16) :
    multiReduction .add [2] S512x16 s 0x00000000#32 reduces_S512x16x16_S512x16 hφ hacc (ix2 p h1)
      = ∑ h2 : Fin 16, s (ix3 p h1 h2) := by
  refine (Ideal.multiReduction_add_single s 0x00000000#32 reduces_S512x16x16_S512x16 hφ hacc (ix2 p h1)).trans ?_
  exact Finset.sum_congr rfl fun k _ => congrArg s (lift_eq p h1 k)

end Cert.Attn.Ker

end
-- ==== Proof.KernelRow.lean ====
/-
  One block of the kernel's result, row by row: at row `p` of the 512 rows a grid point works on,
  the body's stored value is `attnRow` of row `p` of the input block, over the four weight blocks
  (already laid out contraction index first) and the four biases. The body's arithmetic is read
  stage by stage at one entry: the projections to heads, the scaled scores, the row maximum, and
  then the softmax, the mixing of the value heads and the output projection.
-/
import proofs.«132531_j43044162240543_1_alg».proof.Proof.Gen.KernelIdeal.Frame
import proofs.«132531_j43044162240543_1_alg».proof.Proof.Spec
import proofs.«132531_j43044162240543_1_alg».proof.Proof.KernelMatmul
import proofs.«132531_j43044162240543_1_alg».proof.Proof.KernelLayout

noncomputable section
namespace Cert.Attn.Ker
open Cert.KernelIdeal Cert.KernelIdeal.Gen Idealize.ShloMosaic Idealize.ShloMosaic.ValueIdx Cert.Attn

theorem hz2 : (![0, 0] : Fin 2 → Nat) = fun _ => 0 := funext fun a => by fin_cases a <;> rfl
theorem hz1 : (![0] : Fin 1 → Nat) = fun _ => 0 := funext fun a => by fin_cases a; rfl

/-- The one store covers the whole buffer and every load reads a whole block, so what the body leaves is its
    arithmetic applied to the input blocks themselves. -/
theorem out_eq (x0 : Vec Ideal S512x1024 .f32) (x1 x3 x5 x7 : Vec Ideal S1024x1024 .bf16) (x2 x4 x6 x8 : Vec Ideal S1024 .f32) :
    out0_9 (F := Ideal) x0 x1 x2 x3 x4 x5 x6 x7 x8
      = k0_pay1 (k0_pay3 x7) x8 (k0_pay4 x0 x5 x6) (k0_pay5 x0 x1 x3 x2 x4) (k0_pay6 x0 x1 x3 x2 x4) := by
  unfold out0_9
  rw [View.canon_unit_zero hz2]
  simp only [View.ld_unit_zero (S := S512x1024) hz2, View.ld_unit_zero (S := S1024x1024) hz2, View.ld_unit_zero (S := S1024) hz1]

/-- A projection read as heads: row `p`, head `h`, lane `d` is the projected row at position `64 h + d`. -/
theorem heads_apply (x0 : Vec Ideal S512x1024 .f32) (w : Vec Ideal S1024x1024 .bf16) (b : Vec Ideal S1024 .f32)
    (p : Fin 512) (h : Fin 16) (d : Fin 64) :
    k0_pay4 (F := Ideal) x0 w b (ix3 p h d) = proj w b (fun k => x0 (ix2 p k)) (hd h d) := by
  unfold k0_pay4 k0_pay2
  dsimp only
  rw [truncf_apply, toHeads_apply, shapeCast_self]
  exact congrArg₂ (· + ·) (matmulP_apply _ _ p (hd h d)) (biasRows_apply b p (hd h d))

/-- The scores are the product of the two head readings, scaled by the pattern of 0.125. -/
theorem pay5_eq (x0 : Vec Ideal S512x1024 .f32) (x1 x3 : Vec Ideal S1024x1024 .bf16) (x2 x4 : Vec Ideal S1024 .f32) :
    k0_pay5 (F := Ideal) x0 x1 x3 x2 x4
      = mulf (matmul dot_S512x16x64_S512x16x64_S512x16x16_2_2_1_1_0_0 none (k0_pay4 x0 x1 x2) (k0_pay4 x0 x3 x4)
          (constant S512x16x16 .f32 0x00000000#32)) (broadcast S512x16x16 (Scalar.ofBits .f32 0x3E000000#32)) := rfl

theorem scores_apply (x0 : Vec Ideal S512x1024 .f32) (x1 x3 : Vec Ideal S1024x1024 .bf16) (x2 x4 : Vec Ideal S1024 .f32)
    (p : Fin 512) (h1 h2 : Fin 16) :
    k0_pay5 (F := Ideal) x0 x1 x3 x2 x4 (ix3 p h1 h2)
      = score (proj x1 x2 (fun k => x0 (ix2 p k))) (proj x3 x4 (fun k => x0 (ix2 p k))) h1 h2 := by
  rw [pay5_eq]
  show matmul dot_S512x16x64_S512x16x64_S512x16x16_2_2_1_1_0_0 none (k0_pay4 x0 x1 x2) (k0_pay4 x0 x3 x4)
          (constant S512x16x16 .f32 0x00000000#32) (ix3 p h1 h2) * eighth = _
  rw [matmulS_apply]
  unfold score
  refine congrArg (· * eighth) (Finset.sum_congr rfl fun d _ => ?_)
  rw [heads_apply, heads_apply]

/-- The row maximum the body keeps: the pattern of minus infinity joined with the maximum over the row. -/
theorem rowMax_apply (x0 : Vec Ideal S512x1024 .f32) (x1 x3 : Vec Ideal S1024x1024 .bf16) (x2 x4 : Vec Ideal S1024 .f32)
    (p : Fin 512) (h1 : Fin 16) :
    k0_pay6 (F := Ideal) x0 x1 x3 x2 x4 (ix2 p h1)
      = rowMax (score (proj x1 x2 (fun k => x0 (ix2 p k))) (proj x3 x4 (fun k => x0 (ix2 p k)))) h1 := by
  unfold k0_pay6
  dsimp only
  show max negInf (multiReduction .maximumf [2] S512x16 (k0_pay5 x0 x1 x3 x2 x4) 0xFF800000#32 reduces_S512x16x16_S512x16 (.inl rfl) rfl (ix2 p h1)) = _
  rw [maxRow_apply]
  unfold rowMax
  refine congrArg (max negInf) (congrArg (fun f => (Finset.univ : Finset (Fin 16)).fold max negInf f) (funext fun h2 => ?_))
  exact scores_apply x0 x1 x3 x2 x4 p h1 h2

/-- The shifted exponential of a score: the per-head maximum is laid along its row before the subtraction. -/
theorem expo_apply (s : FVec Ideal S512x16x16 .f32) (mv : FVec Ideal S512x16 .f32) (p : Fin 512) (h1 h2 : Fin 16) :
    exp (subf s (broadcastTo S512x16x16 (shapeCast S512x16x1 mv shapeCasts_S512x16_S512x16x1) broadcasts_S512x16x1_S512x16x16)) (ix3 p h1 h2)
      = Ideal.exp (s (ix3 p h1 h2) - mv (ix2 p h1)) := by
  show Ideal.exp (s (ix3 p h1 h2) - broadcastTo S512x16x16 (shapeCast S512x16x1 mv shapeCasts_S512x16_S512x16x1) broadcasts_S512x16x1_S512x16x16 (ix3 p h1 h2)) = _
  rw [perHead_apply]

/-- An entry divided by the sum of its row, the sum laid along the row before the division. -/
theorem quot_apply (E : FVec Ideal S512x16x16 .f32) (hφ : FKind.Formats .f32) (hacc : (0x00000000#32 : BitVec 32) = 0x00000000#32)
    (p : Fin 512) (h1 h2 : Fin 16) :
    divf E (broadcastTo S512x16x16 (shapeCast S512x16x1 (multiReduction .add [2] S512x16 E 0x00000000#32 reduces_S512x16x16_S512x16 hφ hacc)
        shapeCasts_S512x16_S512x16x1) broadcasts_S512x16x1_S512x16x16) (ix3 p h1 h2)
      = Ideal.div (E (ix3 p h1 h2)) (∑ h2' : Fin 16, E (ix3 p h1 h2')) := by
  show Ideal.div (E (ix3 p h1 h2)) (broadcastTo S512x16x16 (shapeCast S512x16x1 (multiReduction .add [2] S512x16 E 0x00000000#32 reduces_S512x16x16_S512x16 hφ hacc)
        shapeCasts_S512x16_S512x16x1) broadcasts_S512x16x1_S512x16x16 (ix3 p h1 h2)) = _
  rw [perHead_apply, sumRow_apply]

/-- From the scores, their row maxima and the value heads of row `p` to row `p` of the stored block: the softmax,
    the mixing of the value heads, the reading back as one row of 1024, the output projection. -/
theorem tail_apply (w : FVec Ideal S1024x1024 .bf16) (b : Vec Ideal S1024 .f32) (v : FVec Ideal S512x16x64 .bf16)
    (s : FVec Ideal S512x16x16 .f32) (mv : FVec Ideal S512x16 .f32) (sfun : Fin 16 → Fin 16 → EReal) (vrow : Fin 1024 → EReal)
    (p : Fin 512) (hs : ∀ h1 h2, s (ix3 p h1 h2) = sfun h1 h2) (hm : ∀ h1, mv (ix2 p h1) = rowMax sfun h1)
    (hv : ∀ h d, v (ix3 p h d) = vrow (hd h d)) (e : Fin 1024) :
    k0_pay1 (F := Ideal) w b v s mv (ix2 p e) = proj w b (fun j => mix sfun vrow (headOf j) (laneOf j)) e := by
  unfold k0_pay1
  dsimp only
  refine (congrArg₂ (· + ·) (matmulP_apply _ _ p e) (biasRows_apply b p e)).trans ?_
  unfold proj
  refine congrArg (· + b (ix1 e)) (Finset.sum_congr rfl fun j _ => congrArg (· * w (ix2 j e)) ?_)
  rw [truncf_apply, fromHeads_apply, matmulM_apply]
  unfold mix
  refine Finset.sum_congr rfl fun h2 _ => ?_
  rw [hv, truncf_apply, quot_apply]
  unfold prob expSum expo
  simp only [expo_apply, hs, hm]

/-- Row `p` of the block a grid point stores is `attnRow` of row `p` of its input block. -/
theorem out_row (x0 : Vec Ideal S512x1024 .f32) (x1 x3 x5 x7 : Vec Ideal S1024x1024 .bf16) (x2 x4 x6 x8 : Vec Ideal S1024 .f32)
    (p : Fin 512) (e : Fin 1024) :
    out0_9 (F := Ideal) x0 x1 x2 x3 x4 x5 x6 x7 x8 (ix2 p e)
      = attnRow x1 x3 x5 x7 x2 x4 x6 x8 (fun k => x0 (ix2 p k)) e := by
  rw [out_eq]
  unfold attnRow
  have hw : k0_pay3 (F := Ideal) x7 = x7 := shapeCast_self x7 shapeCasts_S1024x1024_S1024x1024
  rw [hw]
  exact tail_apply x7 x8 (k0_pay4 x0 x5 x6) (k0_pay5 x0 x1 x3 x2 x4) (k0_pay6 x0 x1 x3 x2 x4) _ _ p
    (fun h1 h2 => scores_apply x0 x1 x3 x2 x4 p h1 h2) (fun h1 => rowMax_apply x0 x1 x3 x2 x4 p h1)
    (fun h d => heads_apply x0 x5 x6 p h d) e

end Cert.Attn.Ker
end
-- ==== Proof.KernelArray.lean ====
/-
  From the blocks to the array. The pipelined region runs 128 grid points; point `t` reads rows
  `512 t … 512 t + 511` of the input (all 1024 columns), sees the four matrices and the four biases whole,
  and writes rows `512 t … 512 t + 511` of the result. Since entry `(p, e)` of what a point computes is the
  attention of row `p` of its own input block, every point writes the block of ONE function of the whole
  arrays — row `n` of the result is the attention of row `n` of the input —, the 128 blocks tile the 65536
  rows, and so the result array ends at that function. The matrices the region sees are the launched
  weights transposed by the host operations in front of it (and narrowed to 16 bits, which is the identity
  over the extended reals).
-/
import proofs.«132531_j43044162240543_1_alg».proof.Proof.Gen.KernelIdeal.Value
import proofs.«132531_j43044162240543_1_alg».proof.Proof.KernelRow
import proofs.«132531_j43044162240543_1_alg».proof.Proof.Spec
import Idealize.ShloMosaic.Lib.Pipeline.Value
import Idealize.ShloMosaic.Lib.StableHlo.Run
import Idealize.ShloMosaic.Lib.Tactic

set_option maxRecDepth 16384

noncomputable section

namespace Cert.Attn.KerArr

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The whole result array as one function of the arrays the pipelined region finds: every row is the
    attention of the same row of the input, over the four matrices the host has laid out contraction
    index first and the four biases. -/
abbrev Garr (c : Dev nD) : S65536x1024.Idx → EReal :=
  result (V m c main_arg0 : S65536x1024.Idx → EReal)
    (V m c main_v1 : S1024x1024.Idx → EReal) (V m c main_v3 : S1024x1024.Idx → EReal)
    (V m c main_v5 : S1024x1024.Idx → EReal) (V m c main_v7 : S1024x1024.Idx → EReal)
    (V m c main_arg2 : S1024.Idx → EReal) (V m c main_arg4 : S1024.Idx → EReal)
    (V m c main_arg6 : S1024.Idx → EReal) (V m c main_arg8 : S1024.Idx → EReal)

/-! ## The index maps, decided once over the 128 grid points -/

/-- Grid point `t` takes block row `t` of the input and writes block row `t` of the result; both blocks span
    all 1024 columns. -/
theorem idx_rows : ∀ t : Fin cfg0.N,
    win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Every grid point sees each of the four matrices whole: its one block is block (0, 0). -/
theorem idx_mats : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0 :=
  (by decide +kernel : ∀ t : Fin grid0.N, _)

/-- Every grid point sees each of the four biases whole: its one block is block 0. -/
theorem idx_vecs : ∀ t : Fin cfg0.N,
    win0_2.index t (0 : Fin 1) = 0 ∧ win0_4.index t (0 : Fin 1) = 0
    ∧ win0_6.index t (0 : Fin 1) = 0 ∧ win0_8.index t (0 : Fin 1) = 0 :=
  (by decide +kernel : ∀ t : Fin grid0.N, _)

/-! ## One entry of one block -/

/-- One entry of a block of the result, over free blocks: if row `p` of the input block is row `i 0` of the
    whole input and column `e` is column `i 1`, the body's value at `(p, e)` is the whole-array function at
    `i` — a row of the result depends on the same row of the input only. -/
theorem block_entry (x0 : Vec Ideal S512x1024 .f32) (x1 x3 x5 x7 : Vec Ideal S1024x1024 .bf16)
    (x2 x4 x6 x8 : Vec Ideal S1024 .f32) (H : S65536x1024.Idx → EReal)
    (p : Fin 512) (e : Fin 1024) (i : S65536x1024.Idx)
    (hrow : ∀ k : Fin 1024, x0 (ix2 p k) = H (ix2 (i 0) k)) (hcol : e = i 1) :
    out0_9 (F := Ideal) x0 x1 x2 x3 x4 x5 x6 x7 x8 (ix2 p e) = result H x1 x3 x5 x7 x2 x4 x6 x8 i := by
  rw [Ker.out_row]
  show attnRow x1 x3 x5 x7 x2 x4 x6 x8 _ _ = attnRow x1 x3 x5 x7 x2 x4 x6 x8 _ _
  rw [hcol, funext hrow]

/-! ## The input blocks, read in the arrays -/

/-- The input block of grid point `t` is rows `512 t … 512 t + 511` of the input array. -/
theorem iblk0_apply (c : Dev nD) (t : Fin cfg0.N) (y : S512x1024.Idx) (i : S65536x1024.Idx)
    (h0 : (i 0).val = 512 * t.val + (y 0).val) (h1 : (i 1).val = (y 1).val) :
    (iblk m c 0 t : Vec Ideal S512x1024 .f32) y = (V m c main_arg0 : S65536x1024.Idx → EReal) i := by
  obtain ⟨e0, e1, -⟩ := idx_rows t
  unfold iblk
  rw [View.read_apply]
  show V m c main_arg0 _ = V m c main_arg0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

/-- A matrix block is the whole matrix, and a bias block the whole bias: the block at index 0 of an array
    of the block's own shape starts at offset 0 on every axis. -/
theorem iblk1_eq (c : Dev nD) (t : Fin cfg0.N) :
    (iblk m c 1 t : Vec Ideal S1024x1024 .bf16) = (V m c main_v1 : S1024x1024.Idx → EReal) := by
  obtain ⟨e0, e1, -⟩ := idx_mats t
  funext y
  unfold iblk
  rw [View.read_apply]
  show V m c main_v1 _ = V m c main_v1 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

theorem iblk3_eq (c : Dev nD) (t : Fin cfg0.N) :
    (iblk m c 3 t : Vec Ideal S1024x1024 .bf16) = (V m c main_v3 : S1024x1024.Idx → EReal) := by
  obtain ⟨-, -, e0, e1, -⟩ := idx_mats t
  funext y
  unfold iblk
  rw [View.read_apply]
  show V m c main_v3 _ = V m c main_v3 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

theorem iblk5_eq (c : Dev nD) (t : Fin cfg0.N) :
    (iblk m c 5 t : Vec Ideal S1024x1024 .bf16) = (V m c main_v5 : S1024x1024.Idx → EReal) := by
  obtain ⟨-, -, -, -, e0, e1, -⟩ := idx_mats t
  funext y
  unfold iblk
  rw [View.read_apply]
  show V m c main_v5 _ = V m c main_v5 _
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

theorem iblk7_eq (c : Dev nD) (t : Fin cfg0.N) :
    (iblk m c 7 t : Vec Ideal S1024x1024 .bf16) = (V m c main_v7 : S1024x1024.Idx → EReal) := by
  obtain ⟨-, -, -, -, -, -, e0, e1⟩ := idx_mats t
  funext y
  unfold iblk
  rw [View.read_apply]
  show V m c main_v7 _ = V m c main_v7 _
  congr 1
  funext a
  apply Fin.ext
  match a with
  | ⟨0, _⟩ => show win0_7.index t (0 : Fin 2) * 1024 + 1 * (y 0).val = (y 0).val; rw [e0]; omega
  | ⟨1, _⟩ => show win0_7.index t (1 : Fin 2) * 1024 + 1 * (y 1).val = (y 1).val; rw [e1]; omega

theorem iblk2_eq (c : Dev nD) (t : Fin cfg0.N) :
    (iblk m c 2 t : Vec Ideal S1024 .f32) = (V m c main_arg2 : S1024.Idx → EReal) := by
  obtain ⟨e0, -⟩ := idx_vecs t
  funext y
  unfold iblk
  rw [View.read_apply]
  show V m c main_arg2 _ = V m c main_arg2 _
  congr 1
  funext a
  apply Fin.ext
  match a with
  | ⟨0, _⟩ => show win0_2.index t (0 : Fin 1) * 1024 + 1 * (y 0).val = (y 0).val; rw [e0]; omega

theorem iblk4_eq (c : Dev nD) (t : Fin cfg0.N) :
    (iblk m c 4 t : Vec Ideal S1024 .f32) = (V m c main_arg4 : S1024.Idx → EReal) := by
  obtain ⟨-, e0, -⟩ := idx_vecs t
  funext y
  unfold iblk
  rw [View.read_apply]
  show V m c main_arg4 _ = V m c main_arg4 _
  congr 1
  funext a
  apply Fin.ext
  match a with
  | ⟨0, _⟩ => show win0_4.index t (0 : Fin 1) * 1024 + 1 * (y 0).val = (y 0).val; rw [e0]; omega

theorem iblk6_eq (c : Dev nD) (t : Fin cfg0.N) :
    (iblk m c 6 t : Vec Ideal S1024 .f32) = (V m c main_arg6 : S1024.Idx → EReal) := by
  obtain ⟨-, -, e0, -⟩ := idx_vecs t
  funext y
  unfold iblk
  rw [View.read_apply]
  show V m c main_arg6 _ = V m c main_arg6 _
  congr 1
  funext a
  apply Fin.ext
  match a with
  | ⟨0, _⟩ => show win0_6.index t (0 : Fin 1) * 1024 + 1 * (y 0).val = (y 0).val; rw [e0]; omega

theorem iblk8_eq (c : Dev nD) (t : Fin cfg0.N) :
    (iblk m c 8 t : Vec Ideal S1024 .f32) = (V m c main_arg8 : S1024.Idx → EReal) := by
  obtain ⟨-, -, -, e0⟩ := idx_vecs t
  funext y
  unfold iblk
  rw [View.read_apply]
  show V m c main_arg8 _ = V m c main_arg8 _
  congr 1
  funext a
  apply Fin.ext
  match a with
  | ⟨0, _⟩ => show win0_8.index t (0 : Fin 1) * 1024 + 1 * (y 0).val = (y 0).val; rw [e0]; omega

/-! ## What one grid point writes back -/

/-- Grid point `t` writes back block `t` of the whole-array function: entry `(p, e)` of its block is the body's
    value there, which is the attention of row `p` of its input block, and that row is row `512 t + p` of the
    input array — the row the entry lands on. -/
theorem flushed_eq (c : Dev nD) (t : Fin cfg0.N) :
    (dats m 0 c).flushed 9 t = ((cfg0.win 9).blk t).view.read (Elt Ideal) (Garr m c) := by
  rw [Value.flushed9]
  obtain ⟨-, -, e0, e1⟩ := idx_rows t
  rw [iblk1_eq, iblk2_eq, iblk3_eq, iblk4_eq, iblk5_eq, iblk6_eq, iblk7_eq, iblk8_eq]
  refine funext fun (y : S512x1024.Idx) => ?_
  show out0_9 (F := Ideal) _ _ _ _ _ _ _ _ _ y = Garr m c (((cfg0.win 9).blk t).view.emb y)
  refine Eq.trans (congrArg (out0_9 (F := Ideal) _ _ _ _ _ _ _ _ _) (eq_ix2 (n0 := 512) (n1 := 1024) y)) ?_
  refine block_entry _ _ _ _ _ _ _ _ _ _ (y 0) (y 1) _ (fun k => ?_) ?_
  · refine iblk0_apply m c t _ _ ?_ ?_
    · show win0_9.index t (0 : Fin 2) * 512 + 1 * (y 0).val = 512 * t.val + (y 0).val
      rw [e0]; omega
    · rfl
  · apply Fin.ext
    show (y 1).val = win0_9.index t (1 : Fin 2) * 1024 + 1 * (y 1).val
    rw [e1]; omega

/-! ## The blocks tile the result -/

/-- An index of the result is in grid point `t`'s block iff each coordinate is in the block's range on its axis. -/
theorem mem_blk (t : Fin cfg0.N) (i : S65536x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v8).slice (win0_9.rect t)).set ↔ _
  rw [View.set_slice_whole, Rect.mem_set_unit]
  exact Iff.rfl

/-- Row `r` of the result is in the block of grid point `r / 512`. -/
theorem cover (i : S65536x1024.Idx) :
    ∃ t : Fin cfg0.N, (cfg0.win 9).flush t = true ∧ i ∈ ((cfg0.win 9).blk t).view.set := by
  have hi0 : (i 0).val < 65536 := (i 0).isLt
  have hi1 : (i 1).val < 1024 := (i 1).isLt
  have hN : cfg0.N = 128 := N_0
  let t : Fin cfg0.N := ⟨(i 0).val / 512, by rw [hN]; omega⟩
  have ht : t.val = (i 0).val / 512 := rfl
  obtain ⟨-, -, e0, e1⟩ := idx_rows t
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; rw [e0, ht]; omega
  | ⟨1, _⟩ => show win0_9.index t (1 : Fin 2) * 1024 ≤ (i 1).val ∧ (i 1).val < win0_9.index t (1 : Fin 2) * 1024 + 1024; rw [e1]; omega

/-- So after the last grid point the result array is the whole-array function. -/
theorem final (c : Dev nD) : (dats m 0 c).arrAt 9 cfg0.N = Garr m c :=
  (dats m 0 c).arrAt_eq_of_cover 9 (Garr m c) (fun t _ => flushed_eq m c t) cover

/-! ## The host operations before the region -/

/-- Each matrix the region reads is the host's transpose of the launched weight, then narrowed to the
    16-bit format — and over the extended reals narrowing changes nothing. -/
theorem V_v1 (c : Dev nD) : (V m c main_v1 : S1024x1024.Idx → EReal)
    = truncf (F := Ideal) .bf16 (transpose S1024x1024 [1, 0] (m ((c : Thread nD τ).loc main_arg1)) transposes_S1024x1024_S1024x1024_1_0) bitsLt_bf16_f32 := by
  dsimp only [Gen.V, Gen.hostOps0]; after_results

theorem V_v3 (c : Dev nD) : (V m c main_v3 : S1024x1024.Idx → EReal)
    = truncf (F := Ideal) .bf16 (transpose S1024x1024 [1, 0] (m ((c : Thread nD τ).loc main_arg3)) transposes_S1024x1024_S1024x1024_1_0) bitsLt_bf16_f32 := by
  dsimp only [Gen.V, Gen.hostOps0]; after_results

theorem V_v5 (c : Dev nD) : (V m c main_v5 : S1024x1024.Idx → EReal)
    = truncf (F := Ideal) .bf16 (transpose S1024x1024 [1, 0] (m ((c : Thread nD τ).loc main_arg5)) transposes_S1024x1024_S1024x1024_1_0) bitsLt_bf16_f32 := by
  dsimp only [Gen.V, Gen.hostOps0]; after_results

theorem V_v7 (c : Dev nD) : (V m c main_v7 : S1024x1024.Idx → EReal)
    = truncf (F := Ideal) .bf16 (transpose S1024x1024 [1, 0] (m ((c : Thread nD τ).loc main_arg7)) transposes_S1024x1024_S1024x1024_1_0) bitsLt_bf16_f32 := by
  dsimp only [Gen.V, Gen.hostOps0]; after_results

/-- The result as a function of the LAUNCHED arrays: the attention of each input row over the transposed
    weights and the biases. -/
abbrev Gm (c : Dev nD) : S65536x1024.Idx → EReal :=
  result (m ((c : Thread nD τ).loc main_arg0) : S65536x1024.Idx → EReal)
    (transpose S1024x1024 [1, 0] (m ((c : Thread nD τ).loc main_arg1)) transposes_S1024x1024_S1024x1024_1_0)
    (transpose S1024x1024 [1, 0] (m ((c : Thread nD τ).loc main_arg3)) transposes_S1024x1024_S1024x1024_1_0)
    (transpose S1024x1024 [1, 0] (m ((c : Thread nD τ).loc main_arg5)) transposes_S1024x1024_S1024x1024_1_0)
    (transpose S1024x1024 [1, 0] (m ((c : Thread nD τ).loc main_arg7)) transposes_S1024x1024_S1024x1024_1_0)
    (m ((c : Thread nD τ).loc main_arg2) : S1024.Idx → EReal) (m ((c : Thread nD τ).loc main_arg4) : S1024.Idx → EReal)
    (m ((c : Thread nD τ).loc main_arg6) : S1024.Idx → EReal) (m ((c : Thread nD τ).loc main_arg8) : S1024.Idx → EReal)

/-- What the region finds is what was launched, the four weights transposed. -/
theorem Garr_eq (c : Dev nD) : Garr m c = Gm m c := by
  unfold Garr Gm
  rw [V_v1, V_v3, V_v5, V_v7, V_main_arg0, V_main_arg2, V_main_arg4, V_main_arg6, V_main_arg8]
  rfl

/-! ## The run -/

/-- The kernel's run: the result buffer ends at the attention of every input row over the transposed
    weights, and the nine arguments are as launched. -/
theorem kernel_run : θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans ((final m c).trans (Garr_eq m c)), (h c).2⟩)
    (Value.run_blocks m ρ)

end Cert.Attn.KerArr
end
-- ==== Proof.RefRow.lean ====
/-
  The reference program, read one row at a time.

  The reference works on all 65536 rows at once, but no operation of it mixes two rows: the three
  projections are a row times a matrix plus a bias, the scores contract the lanes of two heads of
  the same row, the softmax runs along the second head axis of one row, the mixing sums over the
  heads of one row, and the last projection is again a row times a matrix plus a bias. Reading
  each stage at the coordinates (row, ...) therefore gives the per-row formulas of the shared
  specification, stage after stage, with the row number carried along unchanged.
-/
import proofs.«132531_j43044162240543_1_alg».proof.Proof.Gen.ReferenceIdeal.Read
import proofs.«132531_j43044162240543_1_alg».proof.Proof.Spec

noncomputable section

namespace Cert.Attn.Ref

open Cert.ReferenceIdeal Cert.ReferenceIdeal.Gen Cert.ReferenceIdeal.Read Idealize.ShloMosaic Idealize.ShloMosaic.ValueIdx Cert.Attn

section Stages

variable (x0 : S65536x1024.Idx → EReal)
  (x1 : S1024x1024.Idx → EReal) (x2 : S1024.Idx → EReal) (x3 : S1024x1024.Idx → EReal) (x4 : S1024.Idx → EReal)
  (x5 : S1024x1024.Idx → EReal) (x6 : S1024.Idx → EReal) (x7 : S1024x1024.Idx → EReal) (x8 : S1024.Idx → EReal)

/-! ## The three projections -/

/-- Row n of the input. -/
abbrev rowOf (n : Fin 65536) : Fin 1024 → EReal := fun k => x0 (ix2 n k)

/-- The first projection before it is cut into heads: entry (n, e) is row n times column e of the
    transposed weight, plus the bias at e. -/
theorem q_flat (n : Fin 65536) (e : Fin 1024) :
    val_main_v4 (F := Ideal) x0 x1 x2 (ix2 n e) = proj (val_main_v0 (F := Ideal) x1) x2 (rowOf x0 n) e := by
  rw [val_main_v4_apply, val_main_v1_apply, val_main_v3_apply, val_main_v2_apply]
  show (∑ k : Fin 1024, _) + _ = (∑ k : Fin 1024, _) + _
  have hl : ∀ k : Fin 1024, lidx_main_v1 (ix2 n e) k = ix2 n k := fun k =>
    funext fun a => by match a with | ⟨0, _⟩ => rfl | ⟨1, _⟩ => rfl
  have hr : ∀ k : Fin 1024, ridx_main_v1 (ix2 n e) k = ix2 k e := fun k =>
    funext fun a => by match a with | ⟨0, _⟩ => rfl | ⟨1, _⟩ => rfl
  have hb : idx_main_v2 (idx_main_v3 (ix2 n e)) = ix1 e :=
    funext fun a => by match a with | ⟨0, _⟩ => rfl
  rw [hb]
  exact congrArg (· + x2 (ix1 e)) (Finset.sum_congr rfl fun k _ => by rw [hl, hr])

theorem k_flat (n : Fin 65536) (e : Fin 1024) :
    val_main_v10 (F := Ideal) x0 x3 x4 (ix2 n e) = proj (val_main_v6 (F := Ideal) x3) x4 (rowOf x0 n) e := by
  rw [val_main_v10_apply, val_main_v7_apply, val_main_v9_apply, val_main_v8_apply]
  show (∑ k : Fin 1024, _) + _ = (∑ k : Fin 1024, _) + _
  have hl : ∀ k : Fin 1024, lidx_main_v7 (ix2 n e) k = ix2 n k := fun k =>
    funext fun a => by match a with | ⟨0, _⟩ => rfl | ⟨1, _⟩ => rfl
  have hr : ∀ k : Fin 1024, ridx_main_v7 (ix2 n e) k = ix2 k e := fun k =>
    funext fun a => by match a with | ⟨0, _⟩ => rfl | ⟨1, _⟩ => rfl
  have hb : idx_main_v8 (idx_main_v9 (ix2 n e)) = ix1 e :=
    funext fun a => by match a with | ⟨0, _⟩ => rfl
  rw [hb]
  exact congrArg (· + x4 (ix1 e)) (Finset.sum_congr rfl fun k _ => by rw [hl, hr])

theorem v_flat (n : Fin 65536) (e : Fin 1024) :
    val_main_v16 (F := Ideal) x0 x5 x6 (ix2 n e) = proj (val_main_v12 (F := Ideal) x5) x6 (rowOf x0 n) e := by
  rw [val_main_v16_apply, val_main_v13_apply, val_main_v15_apply, val_main_v14_apply]
  show (∑ k : Fin 1024, _) + _ = (∑ k : Fin 1024, _) + _
  have hl : ∀ k : Fin 1024, lidx_main_v13 (ix2 n e) k = ix2 n k := fun k =>
    funext fun a => by match a with | ⟨0, _⟩ => rfl | ⟨1, _⟩ => rfl
  have hr : ∀ k : Fin 1024, ridx_main_v13 (ix2 n e) k = ix2 k e := fun k =>
    funext fun a => by match a with | ⟨0, _⟩ => rfl | ⟨1, _⟩ => rfl
  have hb : idx_main_v14 (idx_main_v15 (ix2 n e)) = ix1 e :=
    funext fun a => by match a with | ⟨0, _⟩ => rfl
  rw [hb]
  exact congrArg (· + x6 (ix1 e)) (Finset.sum_congr rfl fun k _ => by rw [hl, hr])

/-- Cutting a row of 1024 into 16 heads of 64 lanes keeps the row: position (n, h, d) of the cut
    array is position (n, 64 h + d) of the flat one, because ((16 n + h) 64 + d) divided by 1024
    is n with remainder 64 h + d. -/
theorem cut_index (n : Fin 65536) (h : Fin 16) (d : Fin 64) :
    (((n.val * 16 + h.val) * 64 + d.val) / 1024 = n.val) ∧
      (((n.val * 16 + h.val) * 64 + d.val) % 1024 = h.val * 64 + d.val) := by
  have := h.isLt; have := d.isLt
  constructor <;> omega

theorem q_heads (n : Fin 65536) (h : Fin 16) (d : Fin 64) :
    val_main_v5 (F := Ideal) x0 x1 x2 (ix3 n h d) = proj (val_main_v0 (F := Ideal) x1) x2 (rowOf x0 n) (hd h d) := by
  have hi : idx_main_v5 (ix3 n h d) = ix2 n (hd h d) := funext fun a => Fin.ext (by
    match a with
    | ⟨0, _⟩ => exact (cut_index n h d).1
    | ⟨1, _⟩ => exact (cut_index n h d).2)
  rw [val_main_v5_apply, hi, q_flat]

theorem k_heads (n : Fin 65536) (h : Fin 16) (d : Fin 64) :
    val_main_v11 (F := Ideal) x0 x3 x4 (ix3 n h d) = proj (val_main_v6 (F := Ideal) x3) x4 (rowOf x0 n) (hd h d) := by
  have hi : idx_main_v11 (ix3 n h d) = ix2 n (hd h d) := funext fun a => Fin.ext (by
    match a with
    | ⟨0, _⟩ => exact (cut_index n h d).1
    | ⟨1, _⟩ => exact (cut_index n h d).2)
  rw [val_main_v11_apply, hi, k_flat]

theorem v_heads (n : Fin 65536) (h : Fin 16) (d : Fin 64) :
    val_main_v17 (F := Ideal) x0 x5 x6 (ix3 n h d) = proj (val_main_v12 (F := Ideal) x5) x6 (rowOf x0 n) (hd h d) := by
  have hi : idx_main_v17 (ix3 n h d) = ix2 n (hd h d) := funext fun a => Fin.ext (by
    match a with
    | ⟨0, _⟩ => exact (cut_index n h d).1
    | ⟨1, _⟩ => exact (cut_index n h d).2)
  rw [val_main_v17_apply, hi, v_flat]

/-! ## The scores -/

/-- The three projected rows and the 16 x 16 scores of row n, in the specification's words. -/
abbrev qRow (n : Fin 65536) : Fin 1024 → EReal := proj (val_main_v0 (F := Ideal) x1) x2 (rowOf x0 n)
abbrev kRow (n : Fin 65536) : Fin 1024 → EReal := proj (val_main_v6 (F := Ideal) x3) x4 (rowOf x0 n)
abbrev vRow (n : Fin 65536) : Fin 1024 → EReal := proj (val_main_v12 (F := Ideal) x5) x6 (rowOf x0 n)
abbrev scores (n : Fin 65536) : Fin 16 → Fin 16 → EReal := score (qRow x0 x1 x2 n) (kRow x0 x3 x4 n)

/-- The batched contraction over the 64 lanes pairs head h1 of q with head h2 of k of the same
    row; the reference then divides by the pattern of 8, which is the product with the pattern of
    one eighth. -/
theorem score_at (n : Fin 65536) (h1 h2 : Fin 16) :
    val_main_v20 (F := Ideal) x0 x1 x2 x3 x4 (ix3 n h1 h2) = scores x0 x1 x2 x3 x4 n h1 h2 := by
  rw [val_main_v20_apply, val_main_v19_apply, val_main_cst_apply, val_main_v18_apply]
  show Ideal.div (∑ k : Fin 64, _) (Ideal.ofBits .f32 0x41000000#32) = (∑ d : Fin 64, _) * eighth
  rw [div_eight]
  have hl : ∀ k : Fin 64, lidx_main_v18 (ix3 n h1 h2) k = ix3 n h1 k := fun k =>
    funext fun a => by match a with | ⟨0, _⟩ => rfl | ⟨1, _⟩ => rfl | ⟨2, _⟩ => rfl
  have hr : ∀ k : Fin 64, ridx_main_v18 (ix3 n h1 h2) k = ix3 n h2 k := fun k =>
    funext fun a => by match a with | ⟨0, _⟩ => rfl | ⟨1, _⟩ => rfl | ⟨2, _⟩ => rfl
  exact congrArg (· * eighth) (Finset.sum_congr rfl fun k _ => by rw [hl, hr, q_heads, k_heads])

/-! ## The softmax along the second head axis -/

/-- The maximum of the scores of (n, h1) over h2: the reduction folds max over the last axis
    starting from the pattern of minus infinity, and the result is joined with that pattern once
    more. -/
theorem rowMax_at (n : Fin 65536) (h1 : Fin 16) :
    val_main_v23 (F := Ideal) x0 x1 x2 x3 x4 (ix2 n h1) = rowMax (scores x0 x1 x2 x3 x4 n) h1 := by
  have hR : S65536x16x16.Reduces [2] S65536x16 := by decide
  rw [val_main_v23_apply, val_main_v22_apply, val_main_cst_1_apply]
  unfold val_main_v21
  rw [Host.reduce_eq_fold_single FloatOps.maximumf _ _ reducesTo_S65536x16x16_S65536x16_d2 hR h_S_, val_main_cst_0_apply]
  show max negInf (Finset.fold max negInf _ (Finset.univ : Finset (Fin 16)))
    = max negInf (Finset.fold max negInf _ (Finset.univ : Finset (Fin 16)))
  refine congrArg (max negInf) (Finset.fold_congr fun k _ => ?_)
  have hi : hR.lift (ix2 n h1) k = ix3 n h1 k :=
    funext fun a => Fin.ext (by match a with | ⟨0, _⟩ => rfl | ⟨1, _⟩ => rfl | ⟨2, _⟩ => rfl)
  show val_main_v20 (F := Ideal) x0 x1 x2 x3 x4 (hR.lift (ix2 n h1) k) = _
  rw [hi, score_at]

/-- The exponential of a score minus its row's maximum. -/
theorem expo_at (n : Fin 65536) (h1 h2 : Fin 16) :
    val_main_v27 (F := Ideal) x0 x1 x2 x3 x4 (ix3 n h1 h2) = expo (scores x0 x1 x2 x3 x4 n) h1 h2 := by
  have hi : idx_main_v24 (idx_main_v25 (ix3 n h1 h2)) = ix2 n h1 :=
    funext fun a => by match a with | ⟨0, _⟩ => rfl | ⟨1, _⟩ => rfl
  rw [val_main_v27_apply, val_main_v26_apply, val_main_v25_apply, val_main_v24_apply, hi, score_at, rowMax_at]
  rfl

/-- The sum of a row's exponentials: the reduction starts from the pattern of zero, which adds nothing. -/
theorem expSum_at (n : Fin 65536) (h1 : Fin 16) :
    val_main_v28 (F := Ideal) x0 x1 x2 x3 x4 (ix2 n h1) = expSum (scores x0 x1 x2 x3 x4 n) h1 := by
  rw [val_main_v28_apply, val_main_cst_2_apply]
  show Ideal.ofBits .f32 0x00000000#32 + (∑ k : Fin 16, _) = ∑ h2 : Fin 16, _
  rw [Ideal.ofBits_zero_f32, zero_add]
  refine Finset.sum_congr rfl fun k _ => ?_
  have hi : idx_main_v28 (ix2 n h1) k = ix3 n h1 k :=
    funext fun a => by match a with | ⟨0, _⟩ => rfl | ⟨1, _⟩ => rfl | ⟨2, _⟩ => rfl
  rw [hi, expo_at]

/-- The probabilities: each exponential over its row's sum. -/
theorem prob_at (n : Fin 65536) (h1 h2 : Fin 16) :
    val_main_v31 (F := Ideal) x0 x1 x2 x3 x4 (ix3 n h1 h2) = prob (scores x0 x1 x2 x3 x4 n) h1 h2 := by
  have hi : idx_main_v29 (idx_main_v30 (ix3 n h1 h2)) = ix2 n h1 :=
    funext fun a => by match a with | ⟨0, _⟩ => rfl | ⟨1, _⟩ => rfl
  rw [val_main_v31_apply, val_main_v30_apply, val_main_v29_apply, hi, expo_at, expSum_at]
  rfl

/-! ## Mixing the heads of v, and the last projection -/

/-- The second batched contraction sums over the heads h2 of the same row: probability (h, h2)
    times lane d of head h2 of v. -/
theorem mix_at (n : Fin 65536) (h : Fin 16) (d : Fin 64) :
    val_main_v32 (F := Ideal) x0 x1 x2 x3 x4 x5 x6 (ix3 n h d)
      = mix (scores x0 x1 x2 x3 x4 n) (vRow x0 x5 x6 n) h d := by
  rw [val_main_v32_apply]
  show (∑ k : Fin 16, _) = ∑ h2 : Fin 16, _
  refine Finset.sum_congr rfl fun k _ => ?_
  have hl : lidx_main_v32 (ix3 n h d) k = ix3 n h k :=
    funext fun a => by match a with | ⟨0, _⟩ => rfl | ⟨1, _⟩ => rfl | ⟨2, _⟩ => rfl
  have hr : ridx_main_v32 (ix3 n h d) k = ix3 n k d :=
    funext fun a => by match a with | ⟨0, _⟩ => rfl | ⟨1, _⟩ => rfl | ⟨2, _⟩ => rfl
  rw [hl, hr, prob_at, v_heads]

/-- Gluing the 16 heads of 64 lanes back into a row of 1024 keeps the row: position (n, j) of the
    flat array is position (n, j / 64, j % 64) of the cut one. -/
theorem glue_index (n : Fin 65536) (j : Fin 1024) :
    ((n.val * 1024 + j.val) / 1024 = n.val) ∧ ((n.val * 1024 + j.val) / 64 % 16 = j.val / 64) ∧
      ((n.val * 1024 + j.val) % 64 = j.val % 64) := by
  have := j.isLt
  refine ⟨by omega, by omega, by omega⟩

theorem mixed_flat (n : Fin 65536) (j : Fin 1024) :
    val_main_v33 (F := Ideal) x0 x1 x2 x3 x4 x5 x6 (ix2 n j)
      = mix (scores x0 x1 x2 x3 x4 n) (vRow x0 x5 x6 n) (headOf j) (laneOf j) := by
  have hi : idx_main_v33 (ix2 n j) = ix3 n (headOf j) (laneOf j) := funext fun a => Fin.ext (by
    match a with
    | ⟨0, _⟩ => exact (glue_index n j).1
    | ⟨1, _⟩ => exact (glue_index n j).2.1
    | ⟨2, _⟩ => exact (glue_index n j).2.2)
  rw [val_main_v33_apply, hi, mix_at]

end Stages

/-- Entry (n, e) of the reference's result is the specification's row formula applied to row n of
    the input, with the four transposed weights as its matrices. -/
theorem ref_row (x0 : S65536x1024.Idx → EReal) (x1 x3 x5 x7 : S1024x1024.Idx → EReal) (x2 x4 x6 x8 : S1024.Idx → EReal)
    (n : Fin 65536) (e : Fin 1024) :
    val_main_v38 (F := Ideal) x0 x1 x2 x3 x4 x5 x6 x7 x8 (ix2 n e)
      = attnRow (val_main_v0 (F := Ideal) x1) (val_main_v6 (F := Ideal) x3) (val_main_v12 (F := Ideal) x5) (val_main_v34 (F := Ideal) x7)
          x2 x4 x6 x8 (fun k => x0 (ix2 n k)) e := by
  rw [val_main_v38_apply, val_main_v35_apply, val_main_v37_apply, val_main_v36_apply]
  show (∑ k : Fin 1024, _) + _ = (∑ k : Fin 1024, _) + _
  have hl : ∀ k : Fin 1024, lidx_main_v35 (ix2 n e) k = ix2 n k := fun k =>
    funext fun a => by match a with | ⟨0, _⟩ => rfl | ⟨1, _⟩ => rfl
  have hr : ∀ k : Fin 1024, ridx_main_v35 (ix2 n e) k = ix2 k e := fun k =>
    funext fun a => by match a with | ⟨0, _⟩ => rfl | ⟨1, _⟩ => rfl
  have hb : idx_main_v36 (idx_main_v37 (ix2 n e)) = ix1 e :=
    funext fun a => by match a with | ⟨0, _⟩ => rfl
  rw [hb]
  exact congrArg (· + x8 (ix1 e)) (Finset.sum_congr rfl fun k _ => by rw [hl, hr, mixed_flat])

end Cert.Attn.Ref

end
-- ==== Proof.lean ====
/-
  The claim: the kernel (in its word-level and its idealized form) and the reference leave their arguments as
  launched, and at the ideal instance both end with the same result array. Both results are ONE function of
  the launched arrays: row `n` of the result is the attention of row `n` of the input over the four
  transposed weights and the four biases — the kernel reaches it block of 512 rows by block, multiplying the
  scores by 1/8; the reference reaches it on all rows at once, dividing them by 8.
-/
import proofs.«132531_j43044162240543_1_alg».proof.Defs
import proofs.«132531_j43044162240543_1_alg».proof.Proof.Gen.Kernel
import proofs.«132531_j43044162240543_1_alg».proof.Proof.Gen.Kernel.Skeleton
import proofs.«132531_j43044162240543_1_alg».proof.Proof.Gen.Kernel.Launch
import proofs.«132531_j43044162240543_1_alg».proof.Proof.Gen.Kernel.Points
import proofs.«132531_j43044162240543_1_alg».proof.Proof.Gen.Kernel.Frame
import proofs.«132531_j43044162240543_1_alg».proof.Proof.Gen.KernelIdeal
import proofs.«132531_j43044162240543_1_alg».proof.Proof.Gen.KernelIdeal.Skeleton
import proofs.«132531_j43044162240543_1_alg».proof.Proof.Gen.KernelIdeal.Launch
import proofs.«132531_j43044162240543_1_alg».proof.Proof.Gen.KernelIdeal.Points
import proofs.«132531_j43044162240543_1_alg».proof.Proof.Gen.KernelIdeal.Frame
import proofs.«132531_j43044162240543_1_alg».proof.Proof.Gen.ReferenceIdeal
import proofs.«132531_j43044162240543_1_alg».proof.Proof.Gen.KernelIdeal.Value
import proofs.«132531_j43044162240543_1_alg».proof.Proof.Gen.ReferenceIdeal.Run
import proofs.«132531_j43044162240543_1_alg».proof.Proof.Gen.ReferenceIdeal.Read
import proofs.«132531_j43044162240543_1_alg».proof.Proof.Gen.Pre_finite_inputs
import proofs.«132531_j43044162240543_1_alg».proof.Proof.Spec
import proofs.«132531_j43044162240543_1_alg».proof.Proof.KernelArray
import proofs.«132531_j43044162240543_1_alg».proof.Proof.RefRow
import Idealize.ShloMosaic.Adequacy
import Idealize.ShloMosaic.Init

noncomputable section

namespace Cert.Proof

open Idealize.ShloMosaic Idealize.ShloMosaic.ValueIdx Idealize.SL.Sem Cert.Kernel

/-- The word-level kernel leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped, leaves its arguments as launched. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal instance the kernel's result array ends at the attention of every input row over the
    transposed weights (the blocks assembled), and the reference's result, read at row `n` and column `e`, is
    the attention of row `n` of ITS input over ITS transposed weights; the arguments agree, so the two are
    one array. -/
theorem algebraic : Cert.algebraic_KernelIdeal_ReferenceIdeal := by
  intro m ρ m' ρ' _ hagree
  refine ⟨fun c => Cert.Attn.KerArr.Gm m c, Cert.Attn.KerArr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq]
  obtain ⟨a0, a1, a2, a3, a4, a5, a6, a7, a8⟩ := hagree c
  rw [a0, a1, a2, a3, a4, a5, a6, a7, a8]
  refine funext fun (i : Cert.ReferenceIdeal.S65536x1024.Idx) => ?_
  exact (congrArg (Cert.ReferenceIdeal.Read.val_main_v38 (F := Ideal) _ _ _ _ _ _ _ _ _)
      (eq_ix2 (n0 := 65536) (n1 := 1024) i)).trans
    (Cert.Attn.Ref.ref_row _ _ _ _ _ _ _ _ _ (i 0) (i 1))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
